-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x2048 : Shape := ⟨2, ![8192, 2048]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x4096 .f32) (main_arg1 : FVec F S8192x2048 .f32) (main_arg2 : FVec F S8192 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8192x4096 : Shape := ⟨2, ![8192, 4096]⟩
abbrev S8192x2048 : Shape := ⟨2, ![8192, 2048]⟩
abbrev S8192 : Shape := ⟨1, ![8192]⟩
abbrev S8192x2048x2 : Shape := ⟨3, ![8192, 2048, 2]⟩
abbrev S8192x2048x1 : Shape := ⟨3, ![8192, 2048, 1]⟩
abbrev S4096x2048 : Shape := ⟨2, ![4096, 2048]⟩
abbrev S4096 : Shape := ⟨1, ![4096]⟩
abbrev S1x4096 : Shape := ⟨2, ![1, 4096]⟩
abbrev S512x2048 : Shape := ⟨2, ![512, 2048]⟩
abbrev S1x512 : Shape := ⟨2, ![1, 512]⟩
abbrev S512x512 : Shape := ⟨2, ![512, 512]⟩
abbrev S_ : Shape := ⟨0, ![]⟩
abbrev S8192x4096x1 : Shape := ⟨3, ![8192, 4096, 1]⟩
abbrev S8192x4096x2 : Shape := ⟨3, ![8192, 4096, 2]⟩
abbrev S8192x8192x1 : Shape := ⟨3, ![8192, 8192, 1]⟩

abbrev nBuf : Space → Nat
  | .hbm => 19
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192, .f32⟩
  | .hbm, ⟨3, _⟩ => ⟨S8192x2048x2, .f32⟩
  | .hbm, ⟨4, _⟩ => ⟨S8192x2048x1, .f32⟩
  | .hbm, ⟨5, _⟩ => ⟨S8192x2048, .f32⟩
  | .hbm, ⟨6, _⟩ => ⟨S4096x2048, .f32⟩
  | .hbm, ⟨7, _⟩ => ⟨S4096x2048, .f32⟩
  | .hbm, ⟨8, _⟩ => ⟨S4096, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096x1, .f32⟩
  | .hbm, ⟨16, _⟩ => ⟨S8192x4096x1, .f32⟩
  | .hbm, ⟨17, _⟩ => ⟨S8192x4096x2, .f32⟩
  | .hbm, ⟨18, _⟩ => ⟨S8192x8192x1, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8192x4096_S8192x2048x2 : S8192x4096.ShapeCasts S8192x2048x2
  slices_S8192x2048x2_S8192x2048x1_0_0_1 : S8192x2048x2.Slices ![0, 0, 1] S8192x2048x1
  shapeCasts_S8192x2048x1_S8192x2048 : S8192x2048x1.ShapeCasts S8192x2048
  slices_S8192x2048_S4096x2048_0_0 : S8192x2048.Slices ![0, 0] S4096x2048
  slices_S8192x2048_S4096x2048_4096_0 : S8192x2048.Slices ![4096, 0] S4096x2048
  slices_S8192_S4096_0 : S8192.Slices ![0] S4096
  shapeCasts_S4096_S1x4096 : S4096.ShapeCasts S1x4096
  slices_S8192_S4096_4096 : S8192.Slices ![4096] S4096
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  bcast_S_S8192x4096 : S_.BroadcastsInDim S8192x4096 (![] : Fin 0 → Fin S8192x4096.rank)
  bcast_S8192x4096_S8192x4096x1_0_1 : S8192x4096.BroadcastsInDim S8192x4096x1 (![0, 1] : Fin 2 → Fin S8192x4096x1.rank)
  concatenates_S8192x4096x1_S8192x4096x1_S8192x4096x2_d2 : Shape.Concatenates [S8192x4096x1, S8192x4096x1] S8192x4096x2 2
  shapeCasts_S8192x4096x2_S8192x8192x1 : S8192x4096x2.ShapeCasts S8192x8192x1
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x2048.size a
  hwx0_2 : ∀ i : grid0.Coords, EltTy.bits .f32 = 32 ∨ (Rect.block (s := S4096x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x4096.size a
  hwx0_5 : ∀ i : grid0.Coords, EltTy.bits .f32 = 32 ∨ (Rect.block (s := S8192x4096) S512x512.size (cc0_transform_5 i) (hinb0_5 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v2) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x2048 : Shape := ⟨2, ![8192, 2048]⟩
abbrev S8192 : Shape := ⟨1, ![8192]⟩
abbrev S8192x2048x2 : Shape := ⟨3, ![8192, 2048, 2]⟩
abbrev S8192x2048x1 : Shape := ⟨3, ![8192, 2048, 1]⟩
abbrev S8192x8192 : Shape := ⟨2, ![8192, 8192]⟩
abbrev S1x8192 : Shape := ⟨2, ![1, 8192]⟩
abbrev S_ : Shape := ⟨0, ![]⟩
abbrev S8192x4096x1 : Shape := ⟨3, ![8192, 4096, 1]⟩
abbrev S8192x4096x2 : Shape := ⟨3, ![8192, 4096, 2]⟩
abbrev S8192x8192x1 : Shape := ⟨3, ![8192, 8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192, .f32⟩
  | .hbm, ⟨3, _⟩ => ⟨S8192x2048x2, .f32⟩
  | .hbm, ⟨4, _⟩ => ⟨S8192x2048x1, .f32⟩
  | .hbm, ⟨5, _⟩ => ⟨S8192x2048, .f32⟩
  | .hbm, ⟨6, _⟩ => ⟨S8192x8192, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096x1, .f32⟩
  | .hbm, ⟨19, _⟩ => ⟨S8192x4096x1, .f32⟩
  | .hbm, ⟨20, _⟩ => ⟨S8192x4096x2, .f32⟩
  | .hbm, ⟨21, _⟩ => ⟨S8192x8192x1, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  shapeCasts_S8192x4096_S8192x2048x2 : S8192x4096.ShapeCasts S8192x2048x2
  slices_S8192x2048x2_S8192x2048x1_0_0_1 : S8192x2048x2.Slices ![0, 0, 1] S8192x2048x1
  shapeCasts_S8192x2048x1_S8192x2048 : S8192x2048x1.ShapeCasts S8192x2048
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  slices_S8192x8192_S8192x4096_0_0 : S8192x8192.Slices ![0, 0] S8192x4096
  slices_S8192x8192_S8192x4096_0_4096 : S8192x8192.Slices ![0, 4096] S8192x4096
  bcast_S_S8192x4096 : S_.BroadcastsInDim S8192x4096 (![] : Fin 0 → Fin S8192x4096.rank)
  bcast_S8192x4096_S8192x4096x1_0_1 : S8192x4096.BroadcastsInDim S8192x4096x1 (![0, 1] : Fin 2 → Fin S8192x4096x1.rank)
  concatenates_S8192x4096x1_S8192x4096x1_S8192x4096x2_d2 : Shape.Concatenates [S8192x4096x1, S8192x4096x1] S8192x4096x2 2
  shapeCasts_S8192x4096x2_S8192x8192x1 : S8192x4096x2.ShapeCasts S8192x8192x1
  dot_S8192x2048_S8192x2048_S8192x8192_1_1_0_0_n_n_wf : DotDims.WF S8192x2048 S8192x2048 S8192x8192 [1] [1] [0] [0] [] []

variable [Facts₀]

def dot_S8192x2048_S8192x2048_S8192x8192_1_1_0_0_n_n : DotDims S8192x2048 S8192x2048 S8192x8192 where
  lhsContracting := [1]
  rhsContracting := [1]
  lhsNonContracting := [0]
  rhsNonContracting := [0]
  lhsBatch := []
  rhsBatch := []
  wf := dot_S8192x2048_S8192x2048_S8192x8192_1_1_0_0_n_n_wf

class Facts : Prop extends Facts₀ where

variable [Facts]
-- ==== Proof.Fold.lean ====
/-
  The function both programs compute, before the shared interleaving with zeros.

  `X` is the [8192, 2048] array of odd-indexed columns of the input, `W` the [8192, 2048] weights, `β` the 8192
  biases. A dense unit `d` on sample `b` is `max (∑ₖ X (b, k) · W (d, k) + β d) 0`; the fold at `(b, n)`, for
  `n < 4096`, is unit `n` minus unit `4096 + n`.
-/
import Idealize.ShloMosaic.Lib.ValueIdx
import Idealize.ShloMosaic.PureOps.Ideal.Laws

noncomputable section

namespace Cert.Fold

open Idealize.ShloMosaic Idealize.ShloMosaic.ValueIdx

/-- The extended real the all-zero 32-bit word denotes; it is the same word in both programs and is never evaluated. -/
abbrev zeroWord : EReal := Ideal.ofBits .f32 0x00000000#32

/-- Unit `n` of the first half of the 8192 dense units. -/
abbrev lo (n : Fin 4096) : Fin 8192 := ⟨n.val, by omega⟩
/-- Its partner in the second half. -/
abbrev hi (n : Fin 4096) : Fin 8192 := ⟨4096 + n.val, by omega⟩

/-- One rectified dense unit on one sample. -/
def unit (X W : (⟨2, ![8192, 2048]⟩ : Shape).Idx → EReal) (β : (⟨1, ![8192]⟩ : Shape).Idx → EReal)
    (b d : Fin 8192) : EReal :=
  max ((∑ k : Fin 2048, X (ix2 b k) * W (ix2 d k)) + β (ix1 d)) zeroWord

/-- The fold at sample `b` and output column `n`: a first-half unit minus its second-half partner. -/
def foldAt (X W : (⟨2, ![8192, 2048]⟩ : Shape).Idx → EReal) (β : (⟨1, ![8192]⟩ : Shape).Idx → EReal)
    (b : Fin 8192) (n : Fin 4096) : EReal :=
  unit X W β b (lo n) - unit X W β b (hi n)

/-- The folded [8192, 4096] array. -/
def fold (X W : (⟨2, ![8192, 2048]⟩ : Shape).Idx → EReal) (β : (⟨1, ![8192]⟩ : Shape).Idx → EReal) :
    (⟨2, ![8192, 4096]⟩ : Shape).Idx → EReal :=
  fun i => foldAt X W β (i 0) (i 1)

theorem fold_ix2 (X W : (⟨2, ![8192, 2048]⟩ : Shape).Idx → EReal) (β : (⟨1, ![8192]⟩ : Shape).Idx → EReal)
    (b : Fin 8192) (n : Fin 4096) : fold X W β (ix2 b n) = foldAt X W β b n := rfl

/-! ## The same function from the two halves of the weights and of the biases

The kernel is handed the first 4096 rows of `W` and the last 4096 as two arrays, and the two halves of `β` as
two [1, 4096] rows. -/

/-- The fold at `(b, n)` from the halves: `W₁ n` and `B₁ n` are unit `n`'s, `W₂ n` and `B₂ n` its partner's. -/
def regionAt (X : (⟨2, ![8192, 2048]⟩ : Shape).Idx → EReal) (W₁ W₂ : (⟨2, ![4096, 2048]⟩ : Shape).Idx → EReal)
    (B₁ B₂ : (⟨2, ![1, 4096]⟩ : Shape).Idx → EReal) (b : Fin 8192) (n : Fin 4096) : EReal :=
  max ((∑ k : Fin 2048, X (ix2 b k) * W₁ (ix2 n k)) + B₁ (ix2 (0 : Fin 1) n)) zeroWord
    - max ((∑ k : Fin 2048, X (ix2 b k) * W₂ (ix2 n k)) + B₂ (ix2 (0 : Fin 1) n)) zeroWord

/-- The folded array from the halves. -/
def region (X : (⟨2, ![8192, 2048]⟩ : Shape).Idx → EReal) (W₁ W₂ : (⟨2, ![4096, 2048]⟩ : Shape).Idx → EReal)
    (B₁ B₂ : (⟨2, ![1, 4096]⟩ : Shape).Idx → EReal) : (⟨2, ![8192, 4096]⟩ : Shape).Idx → EReal :=
  fun i => regionAt X W₁ W₂ B₁ B₂ (i 0) (i 1)

/-- When the halves are the two row ranges of `W` and the two ranges of `β`, it is the fold. -/
theorem region_eq_fold (X W : (⟨2, ![8192, 2048]⟩ : Shape).Idx → EReal) (β : (⟨1, ![8192]⟩ : Shape).Idx → EReal)
    (W₁ W₂ : (⟨2, ![4096, 2048]⟩ : Shape).Idx → EReal) (B₁ B₂ : (⟨2, ![1, 4096]⟩ : Shape).Idx → EReal)
    (h₁ : ∀ (n : Fin 4096) (k : Fin 2048), W₁ (ix2 n k) = W (ix2 (lo n) k))
    (h₂ : ∀ (n : Fin 4096) (k : Fin 2048), W₂ (ix2 n k) = W (ix2 (hi n) k))
    (h₃ : ∀ n : Fin 4096, B₁ (ix2 (0 : Fin 1) n) = β (ix1 (lo n)))
    (h₄ : ∀ n : Fin 4096, B₂ (ix2 (0 : Fin 1) n) = β (ix1 (hi n))) :
    region X W₁ W₂ B₁ B₂ = fold X W β := by
  funext i
  obtain ⟨b, n, rfl⟩ : ∃ (b : Fin 8192) (n : Fin 4096), i = ix2 b n := ⟨i 0, i 1, eq_ix2 i⟩
  show regionAt X W₁ W₂ B₁ B₂ b n = foldAt X W β b n
  unfold regionAt foldAt unit
  simp only [h₁, h₂, h₃, h₄]

end Cert.Fold

end
-- ==== Proof.RefFold.lean ====
/-
  The reference computes the fold.

  Read one operation at a time, the reference's [8192, 8192] array of rectified units is `Fold.unit` of the
  odd-indexed columns of the input, the weights and the biases, the contraction of the einsum being the same
  sum over 2048 terms; the two column slices are the first-half units and their second-half partners, so their
  difference is `Fold.fold`.
-/
import proofs.«177406_j68710886802317_1_alg».proof.Proof.Gen.ReferenceIdeal.Read
import proofs.«177406_j68710886802317_1_alg».proof.Proof.Fold

noncomputable section

namespace Cert.ReferenceIdeal.RefFold

open Cert.ReferenceIdeal Cert.ReferenceIdeal.Read Idealize.ShloMosaic Idealize.ShloMosaic.ValueIdx

/-- The rectified unit the reference leaves at `(b, d)` of its [8192, 8192] array. -/
theorem unit_eq (x0 : (⟨S8192x4096, .f32⟩ : BufTy).Contents (Elt Ideal)) (x1 : (⟨S8192x2048, .f32⟩ : BufTy).Contents (Elt Ideal))
    (x2 : (⟨S8192, .f32⟩ : BufTy).Contents (Elt Ideal)) (b d : Fin 8192) :
    val_main_v7 (F := Ideal) x0 x1 x2 (ix2 b d) = Cert.Fold.unit (val_main_v2 (F := Ideal) x0) x1 x2 b d := by
  have el : ∀ k : Fin 2048, lidx_main_v3 (ix2 b d) k = ix2 b k := fun k =>
    funext fun a => Fin.ext (by match a with | ⟨0, _⟩ => rfl | ⟨1, _⟩ => rfl)
  have er : ∀ k : Fin 2048, ridx_main_v3 (ix2 b d) k = ix2 d k := fun k =>
    funext fun a => Fin.ext (by match a with | ⟨0, _⟩ => rfl | ⟨1, _⟩ => rfl)
  have eb : idx_main_v4 (idx_main_v5 (ix2 b d)) = ix1 d :=
    funext fun a => Fin.ext (by match a with | ⟨0, _⟩ => rfl)
  rw [val_main_v7_apply, val_main_v6_apply, val_main_v3_apply, val_main_v5_apply, val_main_v4_apply,
    val_main_call0_v0_apply, val_main_call0_cst_apply]
  simp only [el, er, eb]
  rfl

/-- The reference's difference of its two column slices is the fold. -/
theorem fold_eq (x0 : (⟨S8192x4096, .f32⟩ : BufTy).Contents (Elt Ideal)) (x1 : (⟨S8192x2048, .f32⟩ : BufTy).Contents (Elt Ideal))
    (x2 : (⟨S8192, .f32⟩ : BufTy).Contents (Elt Ideal)) :
    val_main_v10 (F := Ideal) x0 x1 x2 = Cert.Fold.fold (val_main_v2 (F := Ideal) x0) x1 x2 := by
  funext i
  obtain ⟨b, n, rfl⟩ : ∃ (b : Fin 8192) (n : Fin 4096), i = ix2 b n := ⟨i 0, i 1, eq_ix2 i⟩
  have e8 : idx_main_v8 (ix2 b n) = ix2 b (Cert.Fold.lo n) :=
    funext fun a => Fin.ext (by match a with | ⟨0, _⟩ => rfl | ⟨1, _⟩ => rfl)
  have e9 : idx_main_v9 (ix2 b n) = ix2 b (Cert.Fold.hi n) :=
    funext fun a => Fin.ext (by match a with | ⟨0, _⟩ => rfl | ⟨1, _⟩ => rfl)
  rw [val_main_v10_apply, val_main_v8_apply, val_main_v9_apply, e8, e9, unit_eq, unit_eq]
  rfl

end Cert.ReferenceIdeal.RefFold

end
-- ==== Proof.LibDotNT.lean ====
/-
  A matrix product against a transposed right operand, at the ideal instance, read at an entry.

  For two rank-2 operands of shapes [M, K] and [N, K] whose dimension numbers contract the SECOND axis of both
  (the product `l · rᵀ`), the product into a zero accumulator is, at row `p` and column `j`, the plain sum over
  `a : Fin K` of `l (p, a) * r (j, a)` on the extended reals. The dimension numbers enter only through four
  coordinate facts (which coordinate of each operand is the output's and which is the contracted one); a caller
  proves those four for its own record and gets the sum.
-/
import Idealize.ShloMosaic.Lib.ValueIdx
import Idealize.ShloMosaic.PureOps.Ideal.Laws

noncomputable section

namespace Cert.Lib.DotNT

open Idealize.ShloMosaic Idealize.ShloMosaic.ValueIdx

/-- The contraction sum of `l · rᵀ`, re-indexed from the record's one-axis contraction index to `Fin K`: the left
    operand is read along its row `p`, the right along its row `j`. -/
theorem contraction_ix2 {M K N : Nat} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : (⟨2, ![M, K]⟩ : Shape).Idx → EReal) (r : (⟨2, ![N, K]⟩ : Shape).Idx → EReal) (p : Fin M) (j : Fin N) :
    ∑ k : D.contr.Idx, l (D.lhsIdx (ix2 p j) k) * r (D.rhsIdx (ix2 p j) k) = ∑ a : Fin K, l (ix2 p a) * r (ix2 j a) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 j a := funext fun d => Fin.ext (by
    match d with
    | ⟨0, _⟩ => exact hr0 _ _
    | ⟨1, _⟩ => exact (hr1 _ _).trans hk)
  rw [el, er]

/-- A kernel's product `l · rᵀ` into the zero accumulator, at the ideal instance, read at `(p, j)`. -/
theorem matmul_zero_ix2 {M K N : Nat} {φ₁ φ₂ : FTy} (D : DotDims ⟨2, ![M, K]⟩ ⟨2, ![N, K]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : FVec Ideal ⟨2, ![M, K]⟩ φ₁) (r : FVec Ideal ⟨2, ![N, K]⟩ φ₂) (p : Fin M) (j : Fin N) :
    matmul D prec l r (constant (F := Ideal) ⟨2, ![M, N]⟩ .f32 0x00000000#32) (ix2 p j)
      = ∑ a : Fin K, l (ix2 p a) * r (ix2 j a) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.DotNT

end
-- ==== Proof.BodyEntry.lean ====
/-
  One entry of what the kernel body stores.

  At the ideal instance the narrowing to bf16 and the same-shape casts are the identity, each of the two
  `tpu.matmul`s into a zero accumulator is the product of the sample block with the TRANSPOSE of a weight block
  (both operands contracted on their second axis), and the bias row is broadcast down the rows. So at row `p` and
  column `q` of the [512, 512] block the body stores
  `max (∑ₖ x (p, k) · w₁ (q, k) + b₁ (0, q)) 0 - max (∑ₖ x (p, k) · w₂ (q, k) + b₂ (0, q)) 0`.
-/
import proofs.«177406_j68710886802317_1_alg».proof.Proof.Gen.KernelIdeal.Skeleton
import proofs.«177406_j68710886802317_1_alg».proof.Proof.LibDotNT
import proofs.«177406_j68710886802317_1_alg».proof.Proof.Fold
import Idealize.ShloMosaic.Lib.Pipeline.Value
import Idealize.ShloMosaic.Lib.ValueIdx

noncomputable section

namespace Cert.KernelIdeal.BodyEntry

open Cert.KernelIdeal Cert.KernelIdeal.Gen Idealize.ShloMosaic Idealize.ShloMosaic.ValueIdx

/-! ## Which coordinate of each operand the product's record reads -/

theorem lhs_axis0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem lhs_axis1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
theorem rhs_axis0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem rhs_axis1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-! ## The pieces of the body at an entry -/

/-- A product of the body at `(p, q)`: row `p` of the sample block against row `q` of the weight block. -/
theorem product_at (x w : Vec Ideal S512x2048 .f32) (h1 h2 : S512x2048.ShapeCasts S512x2048)
    (hb1 hb2 : FTy.bits .bf16 < FTy.bits .f32) (p q : Fin 512) :
    matmul dot_S512x2048_S512x2048_S512x512_1_1_0_0_n_n none (truncf .bf16 (shapeCast S512x2048 x h1) hb1)
        (truncf .bf16 (shapeCast S512x2048 w h2) hb2) (constant (F := Ideal) S512x512 .f32 0x00000000#32) (ix2 p q)
      = ∑ k : Fin 2048, x (ix2 p k) * w (ix2 q k) := by
  rw [Cert.Lib.DotNT.matmul_zero_ix2 dot_S512x2048_S512x2048_S512x512_1_1_0_0_n_n none rfl rfl
    lhs_axis0 lhs_axis1 rhs_axis0 rhs_axis1]
  simp only [truncf_apply, shapeCast_self]

/-- The broadcast bias row at `(p, q)` is its entry `(0, q)`. -/
theorem bias_at (b : Vec Ideal S1x512 .f32) (h : S1x512.ShapeCasts S1x512) (hb : S1x512.Broadcasts S512x512) (p q : Fin 512) :
    broadcastTo S512x512 (shapeCast S1x512 b h) hb (ix2 p q) = b (ix2 (0 : Fin 1) q) := by
  rw [shapeCast_self]
  exact broadcastTo_apply b hb (ix2 p q) (ix2 (0 : Fin 1) q) (fun a => by
    match a with
    | ⟨0, _⟩ => show (0 : Nat) = if (1 : Nat) = 1 then 0 else _; rw [if_pos rfl]
    | ⟨1, _⟩ => show q.val = if (512 : Nat) = 1 then 0 else q.val; rw [if_neg (by decide)])

/-- The stored block at `(p, q)`. -/
theorem stored_at (x w1 w2 : Vec Ideal S512x2048 .f32) (b1 b2 : Vec Ideal S1x512 .f32) (p q : Fin 512) :
    k0_pay1 (F := Ideal) x w1 w2 b1 b2 (ix2 p q)
      = max ((∑ k : Fin 2048, x (ix2 p k) * w1 (ix2 q k)) + b1 (ix2 (0 : Fin 1) q)) Cert.Fold.zeroWord
        - max ((∑ k : Fin 2048, x (ix2 p k) * w2 (ix2 q k)) + b2 (ix2 (0 : Fin 1) q)) Cert.Fold.zeroWord := by
  unfold k0_pay1
  show max (matmul dot_S512x2048_S512x2048_S512x512_1_1_0_0_n_n none _ _ _ (ix2 p q) + broadcastTo S512x512 _ _ (ix2 p q)) (Ideal.ofBits .f32 0x00000000#32)
      - max (matmul dot_S512x2048_S512x2048_S512x512_1_1_0_0_n_n none _ _ _ (ix2 p q) + broadcastTo S512x512 _ _ (ix2 p q)) (Ideal.ofBits .f32 0x00000000#32) = _
  rw [product_at, product_at, bias_at, bias_at]

/-- If the five blocks the body loads are pieces of five arrays — the sample block rows of `X` starting where row
    `i 0` sits, the weight and bias blocks those of the units starting where column `i 1` sits — the entry stored at
    `j` is the fold from the halves at `i`. -/
theorem stored_eq_region (X : S8192x2048.Idx → EReal) (W₁ W₂ : S4096x2048.Idx → EReal) (B₁ B₂ : S1x4096.Idx → EReal)
    (x w1 w2 : Vec Ideal S512x2048 .f32) (b1 b2 : Vec Ideal S1x512 .f32) (j : S512x512.Idx) (i : S8192x4096.Idx)
    (hx : ∀ k : Fin 2048, x (ix2 (j 0) k) = X (ix2 (i 0) k))
    (hw1 : ∀ k : Fin 2048, w1 (ix2 (j 1) k) = W₁ (ix2 (i 1) k))
    (hw2 : ∀ k : Fin 2048, w2 (ix2 (j 1) k) = W₂ (ix2 (i 1) k))
    (hb1 : b1 (ix2 (0 : Fin 1) (j 1)) = B₁ (ix2 (0 : Fin 1) (i 1)))
    (hb2 : b2 (ix2 (0 : Fin 1) (j 1)) = B₂ (ix2 (0 : Fin 1) (i 1))) :
    k0_pay1 (F := Ideal) x w1 w2 b1 b2 j = Cert.Fold.region X W₁ W₂ B₁ B₂ i := by
  obtain ⟨p, q, rfl⟩ : ∃ (p q : Fin 512), j = ix2 p q := ⟨j 0, j 1, eq_ix2 j⟩
  rw [stored_at]
  unfold Cert.Fold.region Cert.Fold.regionAt
  simp only [hx, hw1, hw2, hb1, hb2]

end Cert.KernelIdeal.BodyEntry

end
-- ==== Proof.Blocks.lean ====
/-
  From the kernel's blocks to its output array.

  The grid is 16 by 8: point `t` handles rows `512·R … 512·R + 511` of the samples and units
  `512·C … 512·C + 511` of each half, where `(R, C)` is the block index of the output window at `t`. The sample
  window's block is rows `512·R …` of `X`, the two weight windows' blocks are rows `512·C …` of the two halves of
  the weights, the two bias windows' blocks are columns `512·C …` of the two bias rows, and the body stores the
  whole [512, 512] output block. So what point `t` writes back is block `(R, C)` of the fold from the halves, the
  128 blocks tile the [8192, 4096] array, and the array ends holding that function.
-/
import proofs.«177406_j68710886802317_1_alg».proof.Proof.Gen.KernelIdeal.Frame
import proofs.«177406_j68710886802317_1_alg».proof.Proof.BodyEntry
import proofs.«177406_j68710886802317_1_alg».proof.Proof.Fold
import Idealize.ShloMosaic.Lib.Pipeline.Value
import Idealize.ShloMosaic.Lib.ValueIdx
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The five arrays the region is handed, at their literal shapes -/

abbrev samples (c : Dev nD) : S8192x2048.Idx → EReal := V m c main_v2
abbrev weightsLo (c : Dev nD) : S4096x2048.Idx → EReal := V m c main_v3
abbrev weightsHi (c : Dev nD) : S4096x2048.Idx → EReal := V m c main_v4
abbrev biasLo (c : Dev nD) : S1x4096.Idx → EReal := V m c main_v6
abbrev biasHi (c : Dev nD) : S1x4096.Idx → EReal := V m c main_v8

/-- The function the output array ends holding. -/
abbrev target (c : Dev nD) : S8192x4096.Idx → EReal :=
  Cert.Fold.region (samples m c) (weightsLo m c) (weightsHi m c) (biasLo m c) (biasHi m c)

/-! ## The printed index maps, decided once over the 128 points -/

/-- The sample window moves with the output's row block, the weight and bias windows with its column block; the
    other block index of each is 0; the output's block indices stay inside 16 by 8. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 15 ∧ win0_5.index t (1 : Fin 2) ≤ 7 :=
  (by decide +kernel : ∀ t : Fin grid0.N, _)

/-- Every block of the 16 by 8 tiling is some point's. -/
theorem idx_onto : ∀ (q0 : Fin 16) (q1 : Fin 8), ∃ t : Fin cfg0.N, win0_5.index t = ![q0.val, q1.val] :=
  (by decide +kernel : ∀ (q0 : Fin 16) (q1 : Fin 8), ∃ t : Fin grid0.N, win0_5.index t = ![q0.val, q1.val])

/-! ## Each input window's block read as a piece of its array -/

theorem samples_block (c : Dev nD) (t : Fin cfg0.N) (y : S512x2048.Idx) (k : S8192x2048.Idx)
    (h0 : (k 0).val = win0_0.index t (0 : Fin 2) * 512 + (y 0).val)
    (h1 : (k 1).val = win0_0.index t (1 : Fin 2) * 2048 + (y 1).val) :
    (iblk m c 0 t : Vec Ideal S512x2048 .f32) y = samples m c k := by
  unfold iblk
  rw [View.read_apply]
  show V m c main_v2 _ = V m c main_v2 _
  congr 1
  funext a
  apply Fin.ext
  match a with
  | ⟨0, _⟩ => show win0_0.index t (0 : Fin 2) * 512 + 1 * (y 0).val = (k 0).val; omega
  | ⟨1, _⟩ => show win0_0.index t (1 : Fin 2) * 2048 + 1 * (y 1).val = (k 1).val; omega

theorem weightsLo_block (c : Dev nD) (t : Fin cfg0.N) (y : S512x2048.Idx) (k : S4096x2048.Idx)
    (h0 : (k 0).val = win0_1.index t (0 : Fin 2) * 512 + (y 0).val)
    (h1 : (k 1).val = win0_1.index t (1 : Fin 2) * 2048 + (y 1).val) :
    (iblk m c 1 t : Vec Ideal S512x2048 .f32) y = weightsLo m c k := by
  unfold iblk
  rw [View.read_apply]
  show V m c main_v3 _ = V m c main_v3 _
  congr 1
  funext a
  apply Fin.ext
  match a with
  | ⟨0, _⟩ => show win0_1.index t (0 : Fin 2) * 512 + 1 * (y 0).val = (k 0).val; omega
  | ⟨1, _⟩ => show win0_1.index t (1 : Fin 2) * 2048 + 1 * (y 1).val = (k 1).val; omega

theorem weightsHi_block (c : Dev nD) (t : Fin cfg0.N) (y : S512x2048.Idx) (k : S4096x2048.Idx)
    (h0 : (k 0).val = win0_2.index t (0 : Fin 2) * 512 + (y 0).val)
    (h1 : (k 1).val = win0_2.index t (1 : Fin 2) * 2048 + (y 1).val) :
    (iblk m c 2 t : Vec Ideal S512x2048 .f32) y = weightsHi m c k := by
  unfold iblk
  rw [View.read_apply]
  show V m c main_v4 _ = V m c main_v4 _
  congr 1
  funext a
  apply Fin.ext
  match a with
  | ⟨0, _⟩ => show win0_2.index t (0 : Fin 2) * 512 + 1 * (y 0).val = (k 0).val; omega
  | ⟨1, _⟩ => show win0_2.index t (1 : Fin 2) * 2048 + 1 * (y 1).val = (k 1).val; omega

theorem biasLo_block (c : Dev nD) (t : Fin cfg0.N) (y : S1x512.Idx) (k : S1x4096.Idx)
    (h0 : (k 0).val = win0_3.index t (0 : Fin 2) * 1 + (y 0).val)
    (h1 : (k 1).val = win0_3.index t (1 : Fin 2) * 512 + (y 1).val) :
    (iblk m c 3 t : Vec Ideal S1x512 .f32) y = biasLo m c k := by
  unfold iblk
  rw [View.read_apply]
  show V m c main_v6 _ = V m c main_v6 _
  congr 1
  funext a
  apply Fin.ext
  match a with
  | ⟨0, _⟩ => show win0_3.index t (0 : Fin 2) * 1 + 1 * (y 0).val = (k 0).val; omega
  | ⟨1, _⟩ => show win0_3.index t (1 : Fin 2) * 512 + 1 * (y 1).val = (k 1).val; omega

theorem biasHi_block (c : Dev nD) (t : Fin cfg0.N) (y : S1x512.Idx) (k : S1x4096.Idx)
    (h0 : (k 0).val = win0_4.index t (0 : Fin 2) * 1 + (y 0).val)
    (h1 : (k 1).val = win0_4.index t (1 : Fin 2) * 512 + (y 1).val) :
    (iblk m c 4 t : Vec Ideal S1x512 .f32) y = biasHi m c k := by
  unfold iblk
  rw [View.read_apply]
  show V m c main_v8 _ = V m c main_v8 _
  congr 1
  funext a
  apply Fin.ext
  match a with
  | ⟨0, _⟩ => show win0_4.index t (0 : Fin 2) * 1 + 1 * (y 0).val = (k 0).val; omega
  | ⟨1, _⟩ => show win0_4.index t (1 : Fin 2) * 512 + 1 * (y 1).val = (k 1).val; omega

/-! ## What a point writes back -/

/-- Point `t` writes back block `t` of the target. -/
theorem flushed_eq (c : Dev nD) (t : Fin cfg0.N) :
    (dats m 0 c).flushed 5 t = ((cfg0.win 5).blk t).view.read (Elt Ideal) (target m c) := by
  show (cfg0.win 5).cut (grid0.coords t) ((dats m 0 c).after 5 t) = _
  rw [after0_5]
  unfold out0_5
  rw [View.canon_unit_zero zero_offsets]
  simp only [View.ld_unit_zero (S := S512x2048) zero_offsets, View.ld_unit_zero (S := S1x512) zero_offsets]
  obtain ⟨e00, e01, e10, e11, e20, e21, e30, e31, e40, e41, b0, b1⟩ := idx_facts t
  funext j
  rw [View.read_apply]
  have hj0 : (j 0).val < 512 := (j 0).isLt
  have hj1 : (j 1).val < 512 := (j 1).isLt
  have hi : ((cfg0.win 5).blk t).view.emb j
      = (ix2 (⟨win0_5.index t (0 : Fin 2) * 512 + (j 0).val, by omega⟩ : Fin 8192)
             (⟨win0_5.index t (1 : Fin 2) * 512 + (j 1).val, by omega⟩ : Fin 4096) : S8192x4096.Idx) := by
    funext a
    apply Fin.ext
    match a with
    | ⟨0, _⟩ => show win0_5.index t (0 : Fin 2) * 512 + 1 * (j 0).val = win0_5.index t (0 : Fin 2) * 512 + (j 0).val; omega
    | ⟨1, _⟩ => show win0_5.index t (1 : Fin 2) * 512 + 1 * (j 1).val = win0_5.index t (1 : Fin 2) * 512 + (j 1).val; omega
  rw [hi]
  show k0_pay1 (F := Ideal) (iblk m c 0 t) (iblk m c 1 t) (iblk m c 2 t) (iblk m c 3 t) (iblk m c 4 t) j = _
  refine Cert.KernelIdeal.BodyEntry.stored_eq_region (samples m c) (weightsLo m c) (weightsHi m c) (biasLo m c) (biasHi m c)
    (iblk m c 0 t) (iblk m c 1 t) (iblk m c 2 t) (iblk m c 3 t) (iblk m c 4 t) j _ ?_ ?_ ?_ ?_ ?_
  · intro k
    refine samples_block m c t _ _ ?_ ?_
    · show win0_5.index t (0 : Fin 2) * 512 + (j 0).val = win0_0.index t (0 : Fin 2) * 512 + (j 0).val; omega
    · show k.val = win0_0.index t (1 : Fin 2) * 2048 + k.val; omega
  · intro k
    refine weightsLo_block m c t _ _ ?_ ?_
    · show win0_5.index t (1 : Fin 2) * 512 + (j 1).val = win0_1.index t (0 : Fin 2) * 512 + (j 1).val; omega
    · show k.val = win0_1.index t (1 : Fin 2) * 2048 + k.val; omega
  · intro k
    refine weightsHi_block m c t _ _ ?_ ?_
    · show win0_5.index t (1 : Fin 2) * 512 + (j 1).val = win0_2.index t (0 : Fin 2) * 512 + (j 1).val; omega
    · show k.val = win0_2.index t (1 : Fin 2) * 2048 + k.val; omega
  · refine biasLo_block m c t _ _ ?_ ?_
    · show (0 : Nat) = win0_3.index t (0 : Fin 2) * 1 + 0; omega
    · show win0_5.index t (1 : Fin 2) * 512 + (j 1).val = win0_3.index t (1 : Fin 2) * 512 + (j 1).val; omega
  · refine biasHi_block m c t _ _ ?_ ?_
    · show (0 : Nat) = win0_4.index t (0 : Fin 2) * 1 + 0; omega
    · show win0_5.index t (1 : Fin 2) * 512 + (j 1).val = win0_4.index t (1 : Fin 2) * 512 + (j 1).val; omega

/-! ## The blocks tile the array -/

/-- An index of the array is in point `t`'s block iff each coordinate is in the block's range on its axis. -/
theorem mem_blk (t : Fin cfg0.N) (i : S8192x4096.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v9).slice (win0_5.rect t)).set ↔ _
  rw [View.set_slice_whole, Rect.mem_set_unit]
  exact Iff.rfl

/-- Every index is in the block of the point whose block index is `(row / 512, column / 512)`. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := idx_onto ⟨(i 0).val / 512, by omega⟩ ⟨(i 1).val / 512, by omega⟩
  have q0 : win0_5.index t (0 : Fin 2) = (i 0).val / 512 := congrFun ht 0
  have q1 : win0_5.index t (1 : Fin 2) = (i 1).val / 512 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- The output array after the run. -/
theorem final (c : Dev nD) : (dats m 0 c).arrAt 5 cfg0.N = target m c :=
  (dats m 0 c).arrAt_eq_of_cover 5 (target m c) (fun t _ => flushed_eq m c t) covered

end Cert.KernelIdeal.Blocks

end
-- ==== Proof.Result.lean ====
/-
  The kernel's result as one function of its arguments.

  Before the region the host takes the odd-indexed columns of the input (a reshape to [8192, 2048, 2], the slice at
  1 on the last axis, a reshape back), the two row halves of the weights and the two halves of the biases as
  [1, 4096] rows; so the five arrays the region is handed are those, and the fold from the halves is the fold of
  the arguments. After the region the host interleaves the output array with zeros: each entry is followed by a
  zero, by a concatenation on a new last axis and a reshape to [8192, 8192, 1].
-/
import proofs.«177406_j68710886802317_1_alg».proof.Proof.Blocks
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The odd-indexed columns of the [8192, 4096] input, as the host's three layout operations compute them. -/
def oddColumns (x : S8192x4096.Idx → EReal) : S8192x2048.Idx → EReal :=
  shapeCast S8192x2048 (extractStridedSlice S8192x2048x1 ![0, 0, 1]
    (shapeCast S8192x2048x2 x shapeCasts_S8192x4096_S8192x2048x2) slices_S8192x2048x2_S8192x2048x1_0_0_1)
    shapeCasts_S8192x2048x1_S8192x2048

/-- An [8192, 4096] array interleaved with zeros into [8192, 8192, 1], as the host's tail computes it. -/
def interleaveZeros (y : S8192x4096.Idx → EReal) : S8192x8192x1.Idx → EReal :=
  shapeCast S8192x8192x1 (concatenate S8192x4096x2 2
    [⟨S8192x4096x1, broadcastInDim S8192x4096x1 ![0, 1] bcast_S8192x4096_S8192x4096x1_0_1 y⟩,
     ⟨S8192x4096x1, broadcastInDim S8192x4096x1 ![0, 1] bcast_S8192x4096_S8192x4096x1_0_1
        (broadcastInDim S8192x4096 ![] bcast_S_S8192x4096 (constant (F := Ideal) S_ .f32 0x00000000#32))⟩]
    concatenates_S8192x4096x1_S8192x4096x1_S8192x4096x2_d2) shapeCasts_S8192x4096x2_S8192x8192x1

/-! ## The arrays the region is handed, from the arguments -/

theorem samples_eq (c : Dev nD) : Blocks.samples m c = oddColumns (m ((c : Thread nD τ).loc main_arg0)) := by
  show StableHlo.after hostOps0 (fun b => m (c, b)) (Proc.devRef .tc main_v2) = _
  after_results <;> rfl

theorem weightsLo_eq (c : Dev nD) : Blocks.weightsLo m c
    = extractStridedSlice S4096x2048 ![0, 0] (m ((c : Thread nD τ).loc main_arg1)) slices_S8192x2048_S4096x2048_0_0 := by
  show StableHlo.after hostOps0 (fun b => m (c, b)) (Proc.devRef .tc main_v3) = _
  after_results <;> rfl

theorem weightsHi_eq (c : Dev nD) : Blocks.weightsHi m c
    = extractStridedSlice S4096x2048 ![4096, 0] (m ((c : Thread nD τ).loc main_arg1)) slices_S8192x2048_S4096x2048_4096_0 := by
  show StableHlo.after hostOps0 (fun b => m (c, b)) (Proc.devRef .tc main_v4) = _
  after_results <;> rfl

theorem biasLo_eq (c : Dev nD) : Blocks.biasLo m c
    = shapeCast S1x4096 (extractStridedSlice S4096 ![0] (m ((c : Thread nD τ).loc main_arg2)) slices_S8192_S4096_0) shapeCasts_S4096_S1x4096 := by
  show StableHlo.after hostOps0 (fun b => m (c, b)) (Proc.devRef .tc main_v6) = _
  after_results <;> rfl

theorem biasHi_eq (c : Dev nD) : Blocks.biasHi m c
    = shapeCast S1x4096 (extractStridedSlice S4096 ![4096] (m ((c : Thread nD τ).loc main_arg2)) slices_S8192_S4096_4096) shapeCasts_S4096_S1x4096 := by
  show StableHlo.after hostOps0 (fun b => m (c, b)) (Proc.devRef .tc main_v8) = _
  after_results <;> rfl

/-- Row `n` of the first weight half is row `n` of the weights. -/
theorem weightsLo_at (c : Dev nD) (n : Fin 4096) (k : Fin 2048) :
    Blocks.weightsLo m c (ix2 n k) = (m ((c : Thread nD τ).loc main_arg1) : S8192x2048.Idx → EReal) (ix2 (Cert.Fold.lo n) k) := by
  rw [weightsLo_eq]
  exact extractStridedSlice_apply ![0, 0] _ slices_S8192x2048_S4096x2048_0_0 (ix2 n k) (ix2 (Cert.Fold.lo n) k) (fun a => match a with
    | ⟨0, _⟩ => by show n.val = 0 + n.val; omega
    | ⟨1, _⟩ => by show k.val = 0 + k.val; omega)

/-- Row `n` of the second weight half is row `4096 + n` of the weights. -/
theorem weightsHi_at (c : Dev nD) (n : Fin 4096) (k : Fin 2048) :
    Blocks.weightsHi m c (ix2 n k) = (m ((c : Thread nD τ).loc main_arg1) : S8192x2048.Idx → EReal) (ix2 (Cert.Fold.hi n) k) := by
  rw [weightsHi_eq]
  exact extractStridedSlice_apply ![4096, 0] _ slices_S8192x2048_S4096x2048_4096_0 (ix2 n k) (ix2 (Cert.Fold.hi n) k) (fun a => match a with
    | ⟨0, _⟩ => by show 4096 + n.val = 4096 + n.val; rfl
    | ⟨1, _⟩ => by show k.val = 0 + k.val; omega)

/-- Entry `n` of the first bias row is bias `n`. -/
theorem biasLo_at (c : Dev nD) (n : Fin 4096) :
    Blocks.biasLo m c (ix2 (0 : Fin 1) n) = (m ((c : Thread nD τ).loc main_arg2) : S8192.Idx → EReal) (ix1 (Cert.Fold.lo n)) := by
  rw [biasLo_eq]
  rw [shapeCast_apply _ shapeCasts_S4096_S1x4096 (ix2 (0 : Fin 1) n) (ix1 n)
    (by rewrite [Shape.rowMajor_val_one, Shape.rowMajor_val_two]; show n.val = 0 * 4096 + n.val; omega)]
  exact extractStridedSlice_apply ![0] _ slices_S8192_S4096_0 (ix1 n) (ix1 (Cert.Fold.lo n)) (fun a => match a with
    | ⟨0, _⟩ => by show n.val = 0 + n.val; omega)

/-- Entry `n` of the second bias row is bias `4096 + n`. -/
theorem biasHi_at (c : Dev nD) (n : Fin 4096) :
    Blocks.biasHi m c (ix2 (0 : Fin 1) n) = (m ((c : Thread nD τ).loc main_arg2) : S8192.Idx → EReal) (ix1 (Cert.Fold.hi n)) := by
  rw [biasHi_eq]
  rw [shapeCast_apply _ shapeCasts_S4096_S1x4096 (ix2 (0 : Fin 1) n) (ix1 n)
    (by rewrite [Shape.rowMajor_val_one, Shape.rowMajor_val_two]; show n.val = 0 * 4096 + n.val; omega)]
  exact extractStridedSlice_apply ![4096] _ slices_S8192_S4096_4096 (ix1 n) (ix1 (Cert.Fold.hi n)) (fun a => match a with
    | ⟨0, _⟩ => by show 4096 + n.val = 4096 + n.val; rfl)

/-- The output array ends holding the fold of the arguments. -/
theorem final_fold (c : Dev nD) : (dats m 0 c).arrAt 5 cfg0.N
    = Cert.Fold.fold (oddColumns (m ((c : Thread nD τ).loc main_arg0))) (m ((c : Thread nD τ).loc main_arg1)) (m ((c : Thread nD τ).loc main_arg2)) :=
  (Blocks.final m c).trans
    ((Cert.Fold.region_eq_fold (Blocks.samples m c) (m ((c : Thread nD τ).loc main_arg1)) (m ((c : Thread nD τ).loc main_arg2))
        (Blocks.weightsLo m c) (Blocks.weightsHi m c) (Blocks.biasLo m c) (Blocks.biasHi m c)
        (weightsLo_at m c) (weightsHi_at m c) (biasLo_at m c) (biasHi_at m c)).trans
      (congrArg (fun X => Cert.Fold.fold X (m ((c : Thread nD τ).loc main_arg1)) (m ((c : Thread nD τ).loc main_arg2))) (samples_eq m c)))

/-! ## The host tail -/

/-- The program's result is the output array interleaved with zeros. -/
theorem tail_eq (c : Dev nD) : Pipeline.afterTail₀ cfgs (dats m) 0 (V0 m) [hostOps1] c main_v14
    = interleaveZeros ((dats m 0 c).arrAt 5 cfg0.N) := by
  have hw : Pipeline.withArrays (cfgs 0).spec c (V0 m c) (fun w => (dats m 0 c).arrAt w (cfgs 0).N) (Proc.devRef .tc main_v9)
      = (dats m 0 c).arrAt 5 cfg0.N :=
    Pipeline.withArrays_arr spec0 launch0.win.arr_inj c (V0 m c) (fun w => (dats m 0 c).arrAt w (cfgs 0).N) 5
  unfold Pipeline.afterTail₀
  show StableHlo.after hostOps1 _ (Proc.devRef .tc main_v14) = _
  after_results
  rw [hw]
  rfl

/-! ## The run, read -/

/-- Every weakly fair execution terminates with the result at the fold of the arguments interleaved with zeros,
    the arguments unchanged. -/
theorem run : θ_run defs (onTc (τ := τ) (main (F := Ideal))) ⟨m, fun _ => 0, ρ⟩ fun r => ∀ c : Dev nD,
      r.2.mem ((c.tc : Thread nD τ).loc main_v14)
        = interleaveZeros (Cert.Fold.fold (oddColumns (m ((c : Thread nD τ).loc main_arg0))) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v14 (Pipeline.mem_restRefs_of main_v14 (by decide) (by decide))).trans
        ((tail_eq m c).trans (congrArg interleaveZeros (final_fold m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.lean ====
/-
  A per-sample dense layer folded in two, against its einsum reference, over the extended reals.

  Both programs take the odd-indexed columns `X` of the [8192, 4096] input, form the 8192 dense units
  `max (∑ₖ X (b, k) · W (d, k) + β d) 0` of each sample `b`, subtract from each first-half unit `n` its partner
  `4096 + n`, and interleave the [8192, 4096] result with zeros into [8192, 8192, 1].

  The reference does it with one [8192, 2048] × [8192, 2048]ᵀ product and two column slices. The kernel is handed
  the two row halves of `W` and of `β` and, on a 16 by 8 grid of [512, 512] output blocks, forms the two
  products of a 512-row sample block with the transposes of the two 512-row weight blocks (narrowed to bf16 first,
  which at the ideal instance is the identity), adds the bias rows, rectifies and subtracts. Each contraction runs
  over all 2048 columns at once, so both sides are literally the same sum and no law of the extended reals beyond
  reading a product as that sum is needed; finiteness of the inputs is never used.

  The frames of the two kernel programs are the generated ones; the reference's frame is its generated run with
  the result dropped; the idealization rewrote no operation, so there is nothing to preserve.
-/
import proofs.«177406_j68710886802317_1_alg».proof.Defs
import proofs.«177406_j68710886802317_1_alg».proof.Proof.Gen.Kernel
import proofs.«177406_j68710886802317_1_alg».proof.Proof.Gen.Kernel.Skeleton
import proofs.«177406_j68710886802317_1_alg».proof.Proof.Gen.Kernel.Launch
import proofs.«177406_j68710886802317_1_alg».proof.Proof.Gen.Kernel.Points
import proofs.«177406_j68710886802317_1_alg».proof.Proof.Gen.Kernel.Frame
import proofs.«177406_j68710886802317_1_alg».proof.Proof.Gen.KernelIdeal
import proofs.«177406_j68710886802317_1_alg».proof.Proof.Gen.KernelIdeal.Skeleton
import proofs.«177406_j68710886802317_1_alg».proof.Proof.Gen.KernelIdeal.Launch
import proofs.«177406_j68710886802317_1_alg».proof.Proof.Gen.KernelIdeal.Points
import proofs.«177406_j68710886802317_1_alg».proof.Proof.Gen.KernelIdeal.Frame
import proofs.«177406_j68710886802317_1_alg».proof.Proof.Gen.ReferenceIdeal
import proofs.«177406_j68710886802317_1_alg».proof.Proof.Gen.Pre_finite_inputs
import proofs.«177406_j68710886802317_1_alg».proof.Proof.Gen.ReferenceIdeal.Run
import proofs.«177406_j68710886802317_1_alg».proof.Proof.Gen.ReferenceIdeal.Read
import proofs.«177406_j68710886802317_1_alg».proof.Proof.RefFold
import proofs.«177406_j68710886802317_1_alg».proof.Proof.Result
import Idealize.ShloMosaic.Adequacy
import Idealize.ShloMosaic.Init

noncomputable section

namespace Cert.Proof

open Idealize.ShloMosaic Idealize.SL.Sem

/-! ## The two programs spell the same host terms -/

/-- The reference's odd-indexed columns are the kernel's: the same reshape, slice and reshape. -/
theorem oddColumns_eq (x : (⟨Cert.ReferenceIdeal.S8192x4096, .f32⟩ : BufTy).Contents (Elt Ideal)) :
    Cert.ReferenceIdeal.Read.val_main_v2 (F := Ideal) x = Cert.KernelIdeal.Result.oddColumns x := rfl

/-- The reference's result is its folded array interleaved with zeros, by the same tail as the kernel's. -/
theorem reference_tail (x0 : (⟨Cert.ReferenceIdeal.S8192x4096, .f32⟩ : BufTy).Contents (Elt Ideal))
    (x1 : (⟨Cert.ReferenceIdeal.S8192x2048, .f32⟩ : BufTy).Contents (Elt Ideal))
    (x2 : (⟨Cert.ReferenceIdeal.S8192, .f32⟩ : BufTy).Contents (Elt Ideal)) :
    Cert.ReferenceIdeal.Read.val_main_v15 (F := Ideal) x0 x1 x2
      = Cert.KernelIdeal.Result.interleaveZeros (Cert.ReferenceIdeal.Read.val_main_v10 (F := Ideal) x0 x1 x2) := rfl

/-! ## The claims -/

theorem frame_reference : Cert.frame_ReferenceIdeal := fun m ρ _ =>
  (θ_run Cert.ReferenceIdeal.defs _ _).mono (fun _ h c => (h c).2) (Cert.ReferenceIdeal.Value.run (F := Ideal) m ρ)

/-- Both programs end at the fold of the arguments interleaved with zeros. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v15_eq, reference_tail,
    Cert.ReferenceIdeal.RefFold.fold_eq, oddColumns_eq]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
